-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S128x1024 : Shape := ⟨2, ![128, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S8192x1024 .f32) (main_arg1 : FVec F S8192x1024 .f32) (main_arg2 : FVec F S128x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  main_v13
-- ==== Kernel.lean ====
abbrev S8192x1024 : Shape := ⟨2, ![8192, 1024]⟩
abbrev S128x1024 : Shape := ⟨2, ![128, 1024]⟩
abbrev S8192x128 : Shape := ⟨2, ![8192, 128]⟩
abbrev S8192x1 : Shape := ⟨2, ![8192, 1]⟩
abbrev S1024x1024 : Shape := ⟨2, ![1024, 1024]⟩
abbrev S1024x128 : Shape := ⟨2, ![1024, 128]⟩
abbrev S1024x1 : Shape := ⟨2, ![1024, 1]⟩
abbrev S1024 : Shape := ⟨1, ![1024]⟩
abbrev S128x8192 : Shape := ⟨2, ![128, 8192]⟩
abbrev S1x8192 : Shape := ⟨2, ![1, 8192]⟩
abbrev S1x1024 : Shape := ⟨2, ![1, 1024]⟩
abbrev S8192x8192 : Shape := ⟨2, ![8192, 8192]⟩
abbrev S128x2048 : Shape := ⟨2, ![128, 2048]⟩
abbrev S1x2048 : Shape := ⟨2, ![1, 2048]⟩
abbrev S1024x2048 : Shape := ⟨2, ![1024, 2048]⟩

abbrev nBuf : Space → Nat
  | .hbm => 8
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128x1024, .f32⟩
  | .hbm, ⟨3, _⟩ => ⟨S8192x128, .f32⟩
  | .hbm, ⟨4, _⟩ => ⟨S8192x1, .f32⟩
  | .hbm, ⟨5, _⟩ => ⟨S128x8192, .f32⟩
  | .hbm, ⟨6, _⟩ => ⟨S1x8192, .f32⟩
  | .hbm, ⟨7, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S1024x128, .f32⟩
  | .local _ .vmem, ⟨4, _⟩ => ⟨S1024x128, .f32⟩
  | .local _ .vmem, ⟨5, _⟩ => ⟨S1024x1, .f32⟩
  | .local _ .vmem, ⟨6, _⟩ => ⟨S1024x1, .f32⟩
  | .local _ .vmem, ⟨7, _⟩ => ⟨S1024x1024, .f32⟩
  | .local _ .vmem, ⟨8, _⟩ => ⟨S1024x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x1024, .f32⟩
  | .local _ .vmem, ⟨13, _⟩ => ⟨S1x1024, .f32⟩
  | .local _ .vmem, ⟨14, _⟩ => ⟨S1024x128, .f32⟩
  | .local _ .vmem, ⟨15, _⟩ => ⟨S1024x128, .f32⟩
  | .local _ .vmem, ⟨16, _⟩ => ⟨S128x2048, .f32⟩
  | .local _ .vmem, ⟨17, _⟩ => ⟨S128x2048, .f32⟩
  | .local _ .vmem, ⟨18, _⟩ => ⟨S1024x1, .f32⟩
  | .local _ .vmem, ⟨19, _⟩ => ⟨S1024x1, .f32⟩
  | .local _ .vmem, ⟨20, _⟩ => ⟨S1x2048, .f32⟩
  | .local _ .vmem, ⟨21, _⟩ => ⟨S1x2048, .f32⟩
  | .local _ .vmem, ⟨22, _⟩ => ⟨S1024x2048, .f32⟩
  | .local _ .vmem, ⟨23, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  reduces_S128x1024_S1024 : S128x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x1024_S128x1024_S1024x128_1_1_0_0_n_n_wf : DotDims.WF S1024x1024 S128x1024 S1024x128 [1] [1] [0] [0] [] []
  dot_S128x1024_S1024x1024_S128x1024_1_1_0_0_n_n_wf : DotDims.WF S128x1024 S1024x1024 S128x1024 [1] [1] [0] [0] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x8192.size a
  hwx1_2 : ∀ i : grid1.Coords, EltTy.bits .f32 = 32 ∨ (Rect.block (s := S128x8192) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .f32 = 32 ∨ (Rect.block (s := S8192x128) S1024x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x2048.size a ≤ S128x8192.size a
  hwx2_1 : ∀ i : grid2.Coords, EltTy.bits .f32 = 32 ∨ (Rect.block (s := S128x8192) S128x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x8192.size a
  hwx2_3 : ∀ i : grid2.Coords, EltTy.bits .f32 = 32 ∨ (Rect.block (s := S1x8192) S1x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x2048.size a ≤ S8192x8192.size a
  hwx2_4 : ∀ i : grid2.Coords, EltTy.bits .f32 = 32 ∨ (Rect.block (s := S8192x8192) S1024x2048.size (cc2_transform_4 i) (hinb2_4 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S128x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v1_1) S1x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1024x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S128x1024, .f32⟩
  | .hbm, ⟨3, _⟩ => ⟨S1024x128, .f32⟩
  | .hbm, ⟨4, _⟩ => ⟨S8192x128, .f32⟩
  | .hbm, ⟨5, _⟩ => ⟨S1024x128, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S8192, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S128x8192, .f32⟩
  | .hbm, ⟨14, _⟩ => ⟨S8192x8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S128x1024_S1024x128_1_0 : S128x1024.Transposes [1, 0] S1024x128
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S1024x128_S8192x128_1_0_0_1_n_n_wf : DotDims.WF S8192x1024 S1024x128 S8192x128 [1] [0] [0] [1] [] []
  dot_S8192x128_S128x8192_S8192x8192_1_0_0_1_n_n_wf : DotDims.WF S8192x128 S128x8192 S8192x8192 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The squared distance between rows of two arrays after a low-rank projection, on the extended reals.

  For x, y of shape [8192, 1024] and L of shape [128, 1024]: the projection of row n of an array a onto row r of L is
  proj a L n r = Σ_k a(n, k) · L(r, k); its squared length is sqnorm a L n = Σ_r (proj a L n r)²; and the result is
  dist(m, n) = max( (sqnorm x L m + sqnorm y L n) − 2 · Σ_r proj x L m r · proj y L n r , 0 ).
  The intermediate arrays a program may keep (the projected rows, laid out either way round, and the squared lengths as a
  column or as a row) are named here too, with the last step as a function of those four arrays.
-/
import Idealize.ShloMosaic.PureOps.Ideal
import Idealize.ShloMosaic.Lib.ValueIdx

noncomputable section

open scoped BigOperators

namespace Cert.LowRankDist

open Idealize.ShloMosaic Idealize.ShloMosaic.ValueIdx

/-- An r × c array of extended reals. -/
abbrev Mat (r c : ℕ) : Type := (⟨2, ![r, c]⟩ : Shape).Idx → EReal

/-- The row and the column of an index of an r × c array. -/
abbrev row {r c : ℕ} (i : (⟨2, ![r, c]⟩ : Shape).Idx) : Fin r := i 0
abbrev col {r c : ℕ} (i : (⟨2, ![r, c]⟩ : Shape).Idx) : Fin c := i 1

/-- The word of the factor two, and of zero, as both programs carry them. -/
abbrev twoW : EReal := Ideal.ofBits .f32 0x40000000#32
abbrev zeroW : EReal := Ideal.ofBits .f32 0x00000000#32

/-- Row n of a against row r of L. -/
def proj {N : ℕ} (a : Mat N 1024) (L : Mat 128 1024) (n : Fin N) (r : Fin 128) : EReal :=
  ∑ k : Fin 1024, a (ix2 n k) * L (ix2 r k)

/-- The squared length of the projection of row n. -/
def sqnorm {N : ℕ} (a : Mat N 1024) (L : Mat 128 1024) (n : Fin N) : EReal :=
  ∑ r : Fin 128, proj a L n r * proj a L n r

/-- The inner product of the projections of row m of x and row n of y. -/
def cross (x y : Mat 8192 1024) (L : Mat 128 1024) (m n : Fin 8192) : EReal :=
  ∑ r : Fin 128, proj x L m r * proj y L n r

/-- The clamped squared distance. -/
def dist (x y : Mat 8192 1024) (L : Mat 128 1024) : Mat 8192 8192 := fun i =>
  max ((sqnorm x L (row i) + sqnorm y L (col i)) - twoW * cross x y L (row i) (col i)) zeroW

/-- The projected rows as an [N, 128] array, and transposed as a [128, N] array. -/
def projArr {N : ℕ} (a : Mat N 1024) (L : Mat 128 1024) : Mat N 128 := fun i => proj a L (row i) (col i)
def projArrT {N : ℕ} (a : Mat N 1024) (L : Mat 128 1024) : Mat 128 N := fun i => proj a L (col i) (row i)

/-- The squared lengths as an [N, 1] column, and as a [1, N] row. -/
def sqCol {N : ℕ} (a : Mat N 1024) (L : Mat 128 1024) : Mat N 1 := fun i => sqnorm a L (row i)
def sqRow {N : ℕ} (a : Mat N 1024) (L : Mat 128 1024) : Mat 1 N := fun i => sqnorm a L (col i)

/-- The last step from the four intermediate arrays: at (m, n),
    max( (xn(m, 0) + yn(0, n)) − 2 · Σ_r XL(m, r) · YLT(r, n), 0 ). -/
def distOf (XL : Mat 8192 128) (YLT : Mat 128 8192) (xn : Mat 8192 1) (yn : Mat 1 8192) : Mat 8192 8192 := fun i =>
  max ((xn (ix2 (row i) (0 : Fin 1)) + yn (ix2 (0 : Fin 1) (col i)))
    - twoW * ∑ r : Fin 128, XL (ix2 (row i) r) * YLT (ix2 r (col i))) zeroW

/-- The last step at the intermediate arrays of x, y and L is the clamped squared distance. -/
theorem distOf_eq (x y : Mat 8192 1024) (L : Mat 128 1024) :
    distOf (projArr x L) (projArrT y L) (sqCol x L) (sqRow y L) = dist x y L := rfl

end Cert.LowRankDist

end
-- ==== Proof.LibRowsProduct.lean ====
/-
  The product of an [R, K] array with the transpose of a [C, K] array — both operands contracted along their axis 1,
  no batch axes — read at (r, c) on the extended reals: the sum over k of  lhs(r, k) · rhs(c, k) . With the two operands
  one array this is the Gram matrix of its rows. It holds for the matrix unit's product into a zero accumulator and for
  the host's general product alike: both are the same sum over the one-axis contraction index, re-indexed here by its
  one coordinate.
-/
import Idealize.ShloMosaic.PureOps.Ideal.Laws
import Idealize.ShloMosaic.Lib.ValueIdx

noncomputable section

open scoped BigOperators

namespace Cert.LibRowsProduct

open Idealize.ShloMosaic Idealize.ShloMosaic.ValueIdx

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- The left operand's row is the result's row. -/
theorem lhsIdx_row {R K C : ℕ} (d : DotDims ⟨2, ![R, K]⟩ ⟨2, ![C, K]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right operand's row is the result's column. -/
theorem rhsIdx_row {R K C : ℕ} (d : DotDims ⟨2, ![R, K]⟩ ⟨2, ![C, K]⟩ ⟨2, ![R, C]⟩)
    (h3 : d.lhsNonContracting = [0]) (h4 : d.rhsNonContracting = [0]) (h5 : d.lhsBatch = []) (h6 : d.rhsBatch = [])
    (j : (⟨2, ![R, C]⟩ : Shape).Idx) (k : d.contr.Idx) : (d.rhsIdx j k 0).val = (j 1).val := by
  have hb : (0 : Fin 2) ∉ d.rhsBatch := by rw [h6]; exact List.not_mem_nil
  have hn : (0 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index, as the sum over k of  lhs(r, k) · rhs(c, k) . -/
theorem contr_sum {R K C : ℕ} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (lhs : (⟨2, ![R, K]⟩ : Shape).Idx → EReal) (rhs : (⟨2, ![C, K]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 c k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k), the right one at (c, k)
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  have er : d.rhsIdx (ix2 r c) ((contrEquiv1 d K hr hs).symm k) = ix2 c k := by
    funext a
    match a with
    | ⟨0, _⟩ => exact Fin.ext (rhsIdx_row d h3 h4 h5 h6 (ix2 r c) _)
    | ⟨1, _⟩ => exact Fin.ext ((d.rhsIdx_val_of_single h2 (ix2 r c) _).trans hk)
  rw [el, er]

/-- The matrix unit's product into a zero accumulator, at (r, c). -/
theorem matmul_zero_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    matmul d prec lhs rhs (constant ⟨2, ![R, C]⟩ .f32 0x00000000#32) (ix2 r c)
      = ∑ k : Fin K, lhs (ix2 r k) * rhs (ix2 c k) := by
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_apply {R K C : ℕ} {φ₁ φ₂ : FTy} (d : DotDims ⟨2, ![R, K]⟩ ⟨2, ![C, K]⟩ ⟨2, ![R, C]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![R, K]⟩ φ₁) (rhs : FVec Ideal ⟨2, ![C, K]⟩ φ₂)
    (r : Fin R) (c : Fin C) :
    Host.dotGeneral d prec lhs rhs (ix2 r c) = ∑ k : Fin K, lhs (ix2 r k) * rhs (ix2 c k) := by
  simp only [Host.dotGeneral]
  rw [Ideal.dotGeneral_apply]
  exact contr_sum d h1 h2 h3 h4 h5 h6 lhs rhs r c

end Cert.LibRowsProduct

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.ProjX.lean ====
/-
  The first region: the rows of x projected onto the rows of L, block of 1024 rows by block.
  At grid point t the body reads rows 1024·t … 1024·t + 1023 of x and the whole of L, stores the 1024 × 128 products
  Σ_k x(row, k) · L(r, k) (the change of format before the product is the identity on the extended reals) and, in a column,
  the sums over r of their squares. The eight blocks tile the two result arrays, so after the region the first holds
  the projected rows and the second their squared lengths.
-/
import proofs.«166291_j3058016715342_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«166291_j3058016715342_1_alg».proof.Proof.Spec
import proofs.«166291_j3058016715342_1_alg».proof.Proof.LibRowsProduct
import proofs.«166291_j3058016715342_1_alg».proof.Proof.LibKeepdimsColumn

set_option maxRecDepth 16384

noncomputable section

open scoped BigOperators

namespace Cert.KernelIdeal.ProjX

open Cert.KernelIdeal Cert.KernelIdeal.Gen Idealize.ShloMosaic Idealize.ShloMosaic.TcCoe Idealize.SL.Sem
open Idealize.ShloMosaic.Pipeline (Dat)
open Idealize.ShloMosaic.ValueIdx
open Cert.LowRankDist

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The body's two stored values at an index -/

/-- The stored product at (p, q): the sum over k of the first block at (p, k) times the second at (q, k). -/
theorem pay1_apply (x0 : Vec Ideal S1024x1024 .f32) (x1 : Vec Ideal S128x1024 .f32) (p : Fin 1024) (q : Fin 128) :
    k0_pay1 x0 x1 (ix2 p q) = ∑ k : Fin 1024, x0 (ix2 p k) * x1 (ix2 q k) := by
  unfold k0_pay1
  exact Cert.LibRowsProduct.matmul_zero_apply dot_S1024x1024_S128x1024_S1024x128_1_1_0_0_n_n rfl rfl rfl rfl rfl rfl none _ _ p q

/-- The stored column at (p, 0): the sum over r of the squares of the products in row p. -/
theorem pay2_apply (x0 : Vec Ideal S1024x1024 .f32) (x1 : Vec Ideal S128x1024 .f32) (p : Fin 1024) (u : Fin 1) :
    k0_pay2 x0 x1 (ix2 p u)
      = ∑ r : Fin 128, (∑ k : Fin 1024, x0 (ix2 p k) * x1 (ix2 r k)) * (∑ k : Fin 1024, x0 (ix2 p k) * x1 (ix2 r k)) := by
  unfold k0_pay2
  refine (Cert.LibKeepdimsColumn.shapeCast_a_a1_apply _ _ p u).trans ?_
  refine (Cert.LibKeepdimsColumn.rowSum_apply _ _ _ _ p).trans ?_
  refine Finset.sum_congr rfl fun r _ => ?_
  rw [mulf_apply, pay1_apply]

/-! ## The index maps over the eight grid points -/

/-- Over the grid: the block of x and both result blocks sit at the same block row, every block column is 0, L's block is
    the whole of L, and the block row is at most 7. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_3.index t (0 : Fin 2) = win0_2.index t (0 : Fin 2)
    ∧ win0_3.index t (1 : Fin 2) = 0
    ∧ win0_2.index t (0 : Fin 2) ≤ 7 :=
  (by decide +kernel : ∀ t : Fin grid0.N, _)

/-- Every block row is some grid point's. -/
theorem idx_onto : ∀ q0 : Fin 8, ∃ t : Fin cfg0.N, win0_2.index t (0 : Fin 2) = q0.val :=
  (by decide +kernel : ∀ q0 : Fin 8, ∃ t : Fin grid0.N, win0_2.index t (0 : Fin 2) = q0.val)

/-! ## What a grid point writes back -/

/-- The two arrays the region reads, as it finds them: x and L. -/
abbrev xarr (c : Dev nD) : Mat 8192 1024 := V c main_arg0
abbrev larr (c : Dev nD) : Mat 128 1024 := V c main_arg2

/-- Point t writes back its block of the projected rows. -/
theorem flushed2_eq (c : Dev nD) (t : Fin cfg0.N) :
    (dat0 V c).flushed 2 t = ((cfg0.win 2).blk t).view.read (Elt Ideal) (projArr (V c main_arg0) (V c main_arg2)) := by
  show (cfg0.win 2).cut (grid0.coords t) ((dat0 V c).after 2 t) = _
  rw [after0_2]
  unfold out0_2
  rw [View.canon_unit_zero hz]
  simp only [View.ld_unit_zero (S := S1024x1024) hz, View.ld_unit_zero (S := S128x1024) hz]
  obtain ⟨e0, e1, e2, e3, e4, e5, e6, e7⟩ := idx_facts t
  funext j
  obtain ⟨p, q, rfl⟩ : ∃ (p : Fin 1024) (q : Fin 128), j = ix2 p q := ⟨j 0, j 1, eq_ix2 j⟩
  show k0_pay1 (iblk0 V c 0 t) (iblk0 V c 1 t) (ix2 p q)
    = projArr (V c main_arg0) (V c main_arg2) (((cfg0.win 2).blk t).view.emb (ix2 p q))
  refine (pay1_apply _ _ p q).trans ?_
  show ∑ k : Fin 1024, xarr V c (((cfg0.win 0).blk t).view.emb (ix2 p k)) * larr V c (((cfg0.win 1).blk t).view.emb (ix2 q k))
    = ∑ k : Fin 1024, xarr V c (ix2 (row (((cfg0.win 2).blk t).view.emb (ix2 p q))) k)
        * larr V c (ix2 (col (((cfg0.win 2).blk t).view.emb (ix2 p q))) k)
  refine Finset.sum_congr rfl fun k _ => ?_
  have h0 : ((cfg0.win 0).blk t).view.emb (ix2 p k) = ix2 (row (((cfg0.win 2).blk t).view.emb (ix2 p q))) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1024 + 1 * k.val = k.val; omega
  have h1 : ((cfg0.win 1).blk t).view.emb (ix2 q k) = ix2 (col (((cfg0.win 2).blk t).view.emb (ix2 p q))) k := by
    funext a; apply Fin.ext
    match a with
    | ⟨0, _⟩ => show win0_1.index t (0 : Fin 2) * 128 + 1 * q.val = win0_2.index t (1 : Fin 2) * 128 + 1 * q.val; omega
    | ⟨1, _⟩ => show win0_1.index t (1 : Fin 2) * 1024 + 1 * k.val = k.val; omega
  rw [h0, h1]

/-- Point t writes back its block of the column of squared lengths. -/
theorem flushed3_eq (c : Dev nD) (t : Fin cfg0.N) :
    (dat0 V c).flushed 3 t = ((cfg0.win 3).blk t).view.read (Elt Ideal) (sqCol (V c main_arg0) (V c main_arg2)) := by
  show (cfg0.win 3).cut (grid0.coords t) ((dat0 V c).after 3 t) = _
  rw [after0_3]
  unfold out0_3
  rw [View.canon_unit_zero hz]
  simp only [View.ld_unit_zero (S := S1024x1024) hz, View.ld_unit_zero (S := S128x1024) hz]
  obtain ⟨e0, e1, e2, e3, e4, e5, e6, e7⟩ := idx_facts t
  funext j
  obtain ⟨p, u, rfl⟩ : ∃ (p : Fin 1024) (u : Fin 1), j = ix2 p u := ⟨j 0, j 1, eq_ix2 j⟩
  show k0_pay2 (iblk0 V c 0 t) (iblk0 V c 1 t) (ix2 p u)
    = sqCol (V c main_arg0) (V c main_arg2) (((cfg0.win 3).blk t).view.emb (ix2 p u))
  refine (pay2_apply _ _ p u).trans ?_
  have hrow : ∀ r : Fin 128, (∑ k : Fin 1024, xarr V c (((cfg0.win 0).blk t).view.emb (ix2 p k)) * larr V c (((cfg0.win 1).blk t).view.emb (ix2 r k)))
      = proj (xarr V c) (larr V c) (row (((cfg0.win 3).blk t).view.emb (ix2 p u))) r := fun r => by
    unfold proj
    refine Finset.sum_congr rfl fun k _ => ?_
    have h0 : ((cfg0.win 0).blk t).view.emb (ix2 p k) = ix2 (row (((cfg0.win 3).blk t).view.emb (ix2 p u))) k := by
      funext a; apply Fin.ext
      match a with
      | ⟨0, _⟩ => show win0_0.index t (0 : Fin 2) * 1024 + 1 * p.val = win0_3.index t (0 : Fin 2) * 1024 + 1 * p.val; omega
      | ⟨1, _⟩ => show win0_0.index t (1 : Fin 2) * 1024 + 1 * k.val = k.val; omega
    have h1 : ((cfg0.win 1).blk t).view.emb (ix2 r k) = ix2 r k := by
      funext a; apply Fin.ext
      match a with
      | ⟨0, _⟩ => show win0_1.index t (0 : Fin 2) * 128 + 1 * r.val = r.val; omega
      | ⟨1, _⟩ => show win0_1.index t (1 : Fin 2) * 1024 + 1 * k.val = k.val; omega
    rw [h0, h1]
  show ∑ r : Fin 128, (∑ k : Fin 1024, xarr V c (((cfg0.win 0).blk t).view.emb (ix2 p k)) * larr V c (((cfg0.win 1).blk t).view.emb (ix2 r k)))
      * (∑ k : Fin 1024, xarr V c (((cfg0.win 0).blk t).view.emb (ix2 p k)) * larr V c (((cfg0.win 1).blk t).view.emb (ix2 r k)))
    = ∑ r : Fin 128, proj (xarr V c) (larr V c) (row (((cfg0.win 3).blk t).view.emb (ix2 p u))) r
      * proj (xarr V c) (larr V c) (row (((cfg0.win 3).blk t).view.emb (ix2 p u))) r
  exact Finset.sum_congr rfl fun r _ => by rw [hrow r]

/-! ## The blocks tile the result arrays -/

/-- An index of the projected-rows array is in point t's block iff each coordinate is in the block's range. -/
theorem mem_blk2 (t : Fin cfg0.N) (i : S8192x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v0_0).slice (win0_2.rect t)).set ↔ _
  rw [View.set_slice_whole, Rect.mem_set_unit]
  exact Iff.rfl

/-- Row m of the projected-rows array is in the block of the point whose block row is m / 1024. -/
theorem cover2 (i : S8192x128.Idx) : ∃ t : Fin cfg0.N, (cfg0.win 2).flush t = true ∧ i ∈ ((cfg0.win 2).blk t).view.set := by
  have hi0 : (i 0).val < 8192 := (i 0).isLt
  have hi1 : (i 1).val < 128 := (i 1).isLt
  obtain ⟨t, ht⟩ := idx_onto ⟨(i 0).val / 1024, by omega⟩
  have q0 : win0_2.index t (0 : Fin 2) = (i 0).val / 1024 := ht
  obtain ⟨e0, e1, e2, e3, e4, e5, e6, e7⟩ := idx_facts t
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The same for the column of squared lengths. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v0_1).slice (win0_3.rect t)).set ↔ _
  rw [View.set_slice_whole, Rect.mem_set_unit]
  exact Iff.rfl

theorem cover3 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  obtain ⟨t, ht⟩ := idx_onto ⟨(i 0).val / 1024, by omega⟩
  have q0 : win0_2.index t (0 : Fin 2) = (i 0).val / 1024 := ht
  obtain ⟨e0, e1, e2, e3, e4, e5, e6, e7⟩ := idx_facts t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-! ## The two result arrays after the region -/

/-- After the region the first result array holds the projected rows of x … -/
theorem final2 (c : Dev nD) : (dat0 V c).arrAt 2 cfg0.N = projArr (V c main_arg0) (V c main_arg2) :=
  (dat0 V c).arrAt_eq_of_cover 2 _ (fun t _ => flushed2_eq V c t) cover2

/-- … and the second their squared lengths, as a column. -/
theorem final3 (c : Dev nD) : (dat0 V c).arrAt 3 cfg0.N = sqCol (V c main_arg0) (V c main_arg2) :=
  (dat0 V c).arrAt_eq_of_cover 3 _ (fun t _ => flushed3_eq V c t) cover3

end Cert.KernelIdeal.ProjX

end
-- ==== Proof.LibColSum.lean ====
/-
  The sum over the FIRST axis of an [a, b] matrix on the extended reals, started from the zero word, read at a column j:
  the sum over the rows r of the matrix's entry at (r, j). (The companion of the sum over the last axis; with the
  [b] → [1, b] cast this is a column statistic kept as a row.)
-/
import Idealize.ShloMosaic.Lib.ValueLayout
import Idealize.ShloMosaic.PureOps.Ideal.Laws

open scoped BigOperators

namespace Cert.LibColSum

open Idealize.ShloMosaic Idealize.ShloMosaic.ValueIdx

/-- On the extended reals, the sum over the first axis of an `[a, b]` matrix, started from the zero word: the entry at
    `j` is the sum over the rows `r` of the matrix's entry at `(r, j)`. (The start word's evidence is typed as a printed
    program carries it: the word equal to itself.) -/
theorem colSum_apply {a b : ℕ} (src : FVec Ideal (⟨2, ![a, b]⟩ : Shape) .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ r : Fin a, src (ix2 r j) := by
  refine (Ideal.multiReduction_add_single src 0x00000000#32 h hφ hacc (ix1 j)).trans ?_
  refine Finset.sum_congr rfl fun r _ => congrArg src ?_
  funext ax
  match ax with
  | ⟨0, _⟩ => rfl
  | ⟨1, _⟩ => rfl

end Cert.LibColSum
-- ==== Proof.ProjY.lean ====
/-
  The second region: the rows of L against the rows of y, block of 1024 rows of y by block, laid out transposed.
  At grid point t the body reads rows 1024·t … 1024·t + 1023 of y and the whole of L, stores the 128 × 1024 products
  Σ_k L(r, k) · y(row, k) — the projection of that row of y onto row r of L, the two factors of each term the other way
  round, which changes nothing in a product of extended reals — and, in a row, the sums over r of their squares. The
  eight blocks tile the two result arrays, so after the region the first holds the projected rows of y transposed and
  the second their squared lengths.
-/
import proofs.«166291_j3058016715342_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«166291_j3058016715342_1_alg».proof.Proof.Spec
import proofs.«166291_j3058016715342_1_alg».proof.Proof.LibRowsProduct
import proofs.«166291_j3058016715342_1_alg».proof.Proof.LibColSum

set_option maxRecDepth 16384

noncomputable section

open scoped BigOperators

namespace Cert.KernelIdeal.ProjY

open Cert.KernelIdeal Cert.KernelIdeal.Gen Idealize.ShloMosaic Idealize.ShloMosaic.TcCoe Idealize.SL.Sem
open Idealize.ShloMosaic.Pipeline (Dat)
open Idealize.ShloMosaic.ValueIdx
open Cert.LowRankDist

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The body's two stored values at an index -/

/-- The stored product at (r, q): the sum over k of the second block at (r, k) times the first at (q, k). -/
theorem pay1_apply (x0 : Vec Ideal S1024x1024 .f32) (x1 : Vec Ideal S128x1024 .f32) (r : Fin 128) (q : Fin 1024) :
    k1_pay1 x0 x1 (ix2 r q) = ∑ k : Fin 1024, x1 (ix2 r k) * x0 (ix2 q k) := by
  unfold k1_pay1
  exact Cert.LibRowsProduct.matmul_zero_apply dot_S128x1024_S1024x1024_S128x1024_1_1_0_0_n_n rfl rfl rfl rfl rfl rfl none _ _ r q

/-- The stored row at (0, q): the sum over r of the squares of the products in column q. -/
theorem pay2_apply (x0 : Vec Ideal S1024x1024 .f32) (x1 : Vec Ideal S128x1024 .f32) (u : Fin 1) (q : Fin 1024) :
    k1_pay2 x0 x1 (ix2 u q)
      = ∑ r : Fin 128, (∑ k : Fin 1024, x1 (ix2 r k) * x0 (ix2 q k)) * (∑ k : Fin 1024, x1 (ix2 r k) * x0 (ix2 q k)) := by
  unfold k1_pay2
  refine (shapeCast_a_1a_apply _ _ u q).trans ?_
  refine (Cert.LibColSum.colSum_apply _ _ _ _ q).trans ?_
  refine Finset.sum_congr rfl fun r _ => ?_
  rw [mulf_apply, pay1_apply]

/-! ## The index maps over the eight grid points -/

/-- Over the grid: the block row of y is the block column of both result blocks, every other block index is 0, L's block
    is the whole of L, and the block column is at most 7. -/
theorem idx_facts : ∀ t : Fin cfg1.N, win1_0.index t (0 : Fin 2) = win1_2.index t (1 : Fin 2)
    ∧ win1_0.index t (1 : Fin 2) = 0
    ∧ win1_1.index t (0 : Fin 2) = 0
    ∧ win1_1.index t (1 : Fin 2) = 0
    ∧ win1_2.index t (0 : Fin 2) = 0
    ∧ win1_3.index t (0 : Fin 2) = 0
    ∧ win1_3.index t (1 : Fin 2) = win1_2.index t (1 : Fin 2)
    ∧ win1_2.index t (1 : Fin 2) ≤ 7 :=
  (by decide +kernel : ∀ t : Fin grid1.N, _)

/-- Every block column is some grid point's. -/
theorem idx_onto : ∀ q0 : Fin 8, ∃ t : Fin cfg1.N, win1_2.index t (1 : Fin 2) = q0.val :=
  (by decide +kernel : ∀ q0 : Fin 8, ∃ t : Fin grid1.N, win1_2.index t (1 : Fin 2) = q0.val)

/-! ## What a grid point writes back -/

/-- The two arrays the region reads, as it finds them: y and L. -/
abbrev yarr (c : Dev nD) : Mat 8192 1024 := V c main_arg1
abbrev larr (c : Dev nD) : Mat 128 1024 := V c main_arg2

/-- Point t writes back its block of the transposed projected rows. -/
theorem flushed2_eq (c : Dev nD) (t : Fin cfg1.N) :
    (dat1 V c).flushed 2 t = ((cfg1.win 2).blk t).view.read (Elt Ideal) (projArrT (V c main_arg1) (V c main_arg2)) := by
  show (cfg1.win 2).cut (grid1.coords t) ((dat1 V c).after 2 t) = _
  rw [after1_2]
  unfold out1_2
  rw [View.canon_unit_zero hz]
  simp only [View.ld_unit_zero (S := S1024x1024) hz, View.ld_unit_zero (S := S128x1024) hz]
  obtain ⟨e0, e1, e2, e3, e4, e5, e6, e7⟩ := idx_facts t
  funext j
  obtain ⟨r, q, rfl⟩ : ∃ (r : Fin 128) (q : Fin 1024), j = ix2 r q := ⟨j 0, j 1, eq_ix2 j⟩
  show k1_pay1 (iblk1 V c 0 t) (iblk1 V c 1 t) (ix2 r q)
    = projArrT (V c main_arg1) (V c main_arg2) (((cfg1.win 2).blk t).view.emb (ix2 r q))
  refine (pay1_apply _ _ r q).trans ?_
  show ∑ k : Fin 1024, larr V c (((cfg1.win 1).blk t).view.emb (ix2 r k)) * yarr V c (((cfg1.win 0).blk t).view.emb (ix2 q k))
    = ∑ k : Fin 1024, yarr V c (ix2 (col (((cfg1.win 2).blk t).view.emb (ix2 r q))) k)
        * larr V c (ix2 (row (((cfg1.win 2).blk t).view.emb (ix2 r q))) k)
  refine Finset.sum_congr rfl fun k _ => ?_
  have h0 : ((cfg1.win 0).blk t).view.emb (ix2 q k) = ix2 (col (((cfg1.win 2).blk t).view.emb (ix2 r q))) k := by
    funext a; apply Fin.ext
    match a with
    | ⟨0, _⟩ => show win1_0.index t (0 : Fin 2) * 1024 + 1 * q.val = win1_2.index t (1 : Fin 2) * 1024 + 1 * q.val; omega
    | ⟨1, _⟩ => show win1_0.index t (1 : Fin 2) * 1024 + 1 * k.val = k.val; omega
  have h1 : ((cfg1.win 1).blk t).view.emb (ix2 r k) = ix2 (row (((cfg1.win 2).blk t).view.emb (ix2 r q))) k := by
    funext a; apply Fin.ext
    match a with
    | ⟨0, _⟩ => show win1_1.index t (0 : Fin 2) * 128 + 1 * r.val = win1_2.index t (0 : Fin 2) * 128 + 1 * r.val; omega
    | ⟨1, _⟩ => show win1_1.index t (1 : Fin 2) * 1024 + 1 * k.val = k.val; omega
  rw [h0, h1]
  exact mul_comm _ _

/-- Point t writes back its block of the row of squared lengths. -/
theorem flushed3_eq (c : Dev nD) (t : Fin cfg1.N) :
    (dat1 V c).flushed 3 t = ((cfg1.win 3).blk t).view.read (Elt Ideal) (sqRow (V c main_arg1) (V c main_arg2)) := by
  show (cfg1.win 3).cut (grid1.coords t) ((dat1 V c).after 3 t) = _
  rw [after1_3]
  unfold out1_3
  rw [View.canon_unit_zero hz]
  simp only [View.ld_unit_zero (S := S1024x1024) hz, View.ld_unit_zero (S := S128x1024) hz]
  obtain ⟨e0, e1, e2, e3, e4, e5, e6, e7⟩ := idx_facts t
  funext j
  obtain ⟨u, q, rfl⟩ : ∃ (u : Fin 1) (q : Fin 1024), j = ix2 u q := ⟨j 0, j 1, eq_ix2 j⟩
  show k1_pay2 (iblk1 V c 0 t) (iblk1 V c 1 t) (ix2 u q)
    = sqRow (V c main_arg1) (V c main_arg2) (((cfg1.win 3).blk t).view.emb (ix2 u q))
  refine (pay2_apply _ _ u q).trans ?_
  have hrow : ∀ r : Fin 128, (∑ k : Fin 1024, larr V c (((cfg1.win 1).blk t).view.emb (ix2 r k)) * yarr V c (((cfg1.win 0).blk t).view.emb (ix2 q k)))
      = proj (yarr V c) (larr V c) (col (((cfg1.win 3).blk t).view.emb (ix2 u q))) r := fun r => by
    unfold proj
    refine Finset.sum_congr rfl fun k _ => ?_
    have h0 : ((cfg1.win 0).blk t).view.emb (ix2 q k) = ix2 (col (((cfg1.win 3).blk t).view.emb (ix2 u q))) k := by
      funext a; apply Fin.ext
      match a with
      | ⟨0, _⟩ => show win1_0.index t (0 : Fin 2) * 1024 + 1 * q.val = win1_3.index t (1 : Fin 2) * 1024 + 1 * q.val; omega
      | ⟨1, _⟩ => show win1_0.index t (1 : Fin 2) * 1024 + 1 * k.val = k.val; omega
    have h1 : ((cfg1.win 1).blk t).view.emb (ix2 r k) = ix2 r k := by
      funext a; apply Fin.ext
      match a with
      | ⟨0, _⟩ => show win1_1.index t (0 : Fin 2) * 128 + 1 * r.val = r.val; omega
      | ⟨1, _⟩ => show win1_1.index t (1 : Fin 2) * 1024 + 1 * k.val = k.val; omega
    rw [h0, h1]
    exact mul_comm _ _
  show ∑ r : Fin 128, (∑ k : Fin 1024, larr V c (((cfg1.win 1).blk t).view.emb (ix2 r k)) * yarr V c (((cfg1.win 0).blk t).view.emb (ix2 q k)))
      * (∑ k : Fin 1024, larr V c (((cfg1.win 1).blk t).view.emb (ix2 r k)) * yarr V c (((cfg1.win 0).blk t).view.emb (ix2 q k)))
    = ∑ r : Fin 128, proj (yarr V c) (larr V c) (col (((cfg1.win 3).blk t).view.emb (ix2 u q))) r
      * proj (yarr V c) (larr V c) (col (((cfg1.win 3).blk t).view.emb (ix2 u q))) r
  exact Finset.sum_congr rfl fun r _ => by rw [hrow r]

/-! ## The blocks tile the result arrays -/

/-- An index of the transposed projected-rows array is in point t's block iff each coordinate is in the block's range. -/
theorem mem_blk2 (t : Fin cfg1.N) (i : S128x8192.Idx) :
    i ∈ ((cfg1.win 2).blk t).view.set ↔ ∀ a : Fin 2, win1_2.index t a * S128x1024.size a ≤ (i a).val ∧ (i a).val < win1_2.index t a * S128x1024.size a + S128x1024.size a := by
  show i ∈ ((View.whole main_v1_0).slice (win1_2.rect t)).set ↔ _
  rw [View.set_slice_whole, Rect.mem_set_unit]
  exact Iff.rfl

/-- Column n of that array is in the block of the point whose block column is n / 1024. -/
theorem cover2 (i : S128x8192.Idx) : ∃ t : Fin cfg1.N, (cfg1.win 2).flush t = true ∧ i ∈ ((cfg1.win 2).blk t).view.set := by
  have hi0 : (i 0).val < 128 := (i 0).isLt
  have hi1 : (i 1).val < 8192 := (i 1).isLt
  obtain ⟨t, ht⟩ := idx_onto ⟨(i 1).val / 1024, by omega⟩
  have q0 : win1_2.index t (1 : Fin 2) = (i 1).val / 1024 := ht
  obtain ⟨e0, e1, e2, e3, e4, e5, e6, e7⟩ := idx_facts t
  refine ⟨t, flush1_2 t, ?_⟩
  rw [mem_blk2]
  intro a
  match a with
  | ⟨0, _⟩ => show win1_2.index t (0 : Fin 2) * 128 ≤ (i 0).val ∧ (i 0).val < win1_2.index t (0 : Fin 2) * 128 + 128; omega
  | ⟨1, _⟩ => show win1_2.index t (1 : Fin 2) * 1024 ≤ (i 1).val ∧ (i 1).val < win1_2.index t (1 : Fin 2) * 1024 + 1024; omega

/-- The same for the row of squared lengths. -/
theorem mem_blk3 (t : Fin cfg1.N) (i : S1x8192.Idx) :
    i ∈ ((cfg1.win 3).blk t).view.set ↔ ∀ a : Fin 2, win1_3.index t a * S1x1024.size a ≤ (i a).val ∧ (i a).val < win1_3.index t a * S1x1024.size a + S1x1024.size a := by
  show i ∈ ((View.whole main_v1_1).slice (win1_3.rect t)).set ↔ _
  rw [View.set_slice_whole, Rect.mem_set_unit]
  exact Iff.rfl

theorem cover3 (i : S1x8192.Idx) : ∃ t : Fin cfg1.N, (cfg1.win 3).flush t = true ∧ i ∈ ((cfg1.win 3).blk t).view.set := by
  have hi0 : (i 0).val < 1 := (i 0).isLt
  have hi1 : (i 1).val < 8192 := (i 1).isLt
  obtain ⟨t, ht⟩ := idx_onto ⟨(i 1).val / 1024, by omega⟩
  have q0 : win1_2.index t (1 : Fin 2) = (i 1).val / 1024 := ht
  obtain ⟨e0, e1, e2, e3, e4, e5, e6, e7⟩ := idx_facts t
  refine ⟨t, flush1_3 t, ?_⟩
  rw [mem_blk3]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 1024 ≤ (i 1).val ∧ (i 1).val < win1_3.index t (1 : Fin 2) * 1024 + 1024; omega

/-! ## The two result arrays after the region -/

/-- After the region the first result array holds the projected rows of y, transposed … -/
theorem final2 (c : Dev nD) : (dat1 V c).arrAt 2 cfg1.N = projArrT (V c main_arg1) (V c main_arg2) :=
  (dat1 V c).arrAt_eq_of_cover 2 _ (fun t _ => flushed2_eq V c t) cover2

/-- … and the second their squared lengths, as a row. -/
theorem final3 (c : Dev nD) : (dat1 V c).arrAt 3 cfg1.N = sqRow (V c main_arg1) (V c main_arg2) :=
  (dat1 V c).arrAt_eq_of_cover 3 _ (fun t _ => flushed3_eq V c t) cover3

end Cert.KernelIdeal.ProjY

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Dist.lean ====
/-
  The third region: the clamped squared distances, block of 1024 × 2048 entries by block.
  At grid point (i, j) the body reads the block of 1024 projected rows of x, the block of 2048 columns of the transposed
  projected y, and the matching pieces of the two arrays of squared lengths; at (p, q) of the block it stores
  max( (xn(p, 0) + yn(0, q)) − 2 · Σ_r XL(p, r) · YLT(r, q), 0 ). The thirty-two blocks tile the result array, so after
  the region it holds that expression of the four arrays at every (m, n).
-/
import proofs.«166291_j3058016715342_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«166291_j3058016715342_1_alg».proof.Proof.Spec
import proofs.«166291_j3058016715342_1_alg».proof.Proof.LibDense
import proofs.«166291_j3058016715342_1_alg».proof.Proof.LibKeepdimsColumn

set_option maxRecDepth 16384

noncomputable section

open scoped BigOperators

namespace Cert.KernelIdeal.Dist

open Cert.KernelIdeal Cert.KernelIdeal.Gen Idealize.ShloMosaic Idealize.ShloMosaic.TcCoe Idealize.SL.Sem
open Idealize.ShloMosaic.Pipeline (Dat)
open Idealize.ShloMosaic.ValueIdx
open Cert.LowRankDist

-- the contents of the TensorCore's buffers when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The body's stored value at an index -/

/-- The stored value at (p, q): the column block at (p, 0) plus the row block at (0, q), less twice the sum over r of
    the first block at (p, r) times the second at (r, q), clamped below at zero. (The casts to the same shape and the
    change of format before the product are the identity.) -/
theorem pay_apply (x0 : Vec Ideal S1024x128 .f32) (x1 : Vec Ideal S128x2048 .f32) (x2 : Vec Ideal S1024x1 .f32)
    (x3 : Vec Ideal S1x2048 .f32) (p : Fin 1024) (q : Fin 2048) :
    k2_pay1 x0 x1 x2 x3 (ix2 p q)
      = max ((x2 (ix2 p (0 : Fin 1)) + x3 (ix2 (0 : Fin 1) q)) - twoW * ∑ r : Fin 128, x0 (ix2 p r) * x1 (ix2 r q)) zeroW := by
  unfold k2_pay1
  simp only [shapeCast_self]
  have hA := Cert.LibKeepdimsColumn.broadcastTo_a1_ab_apply x2 broadcasts_S1024x1_S1024x2048 p q
  have hB := broadcastTo_1b_ab_apply x3 broadcasts_S1x2048_S1024x2048 p q
  have hM := Cert.Dense.matmul_zero_plain_apply dot_S1024x128_S128x2048_S1024x2048_1_0_0_1_n_n rfl rfl rfl rfl rfl rfl none
    (truncf .bf16 x0 bitsLt_bf16_f32 : FVec Ideal S1024x128 .bf16) (truncf .bf16 x1 bitsLt_bf16_f32 : FVec Ideal S128x2048 .bf16) p q
  show max ((broadcastTo S1024x2048 x2 broadcasts_S1024x1_S1024x2048 (ix2 p q)
        + broadcastTo S1024x2048 x3 broadcasts_S1x2048_S1024x2048 (ix2 p q))
      - twoW * matmul (F := Ideal) dot_S1024x128_S128x2048_S1024x2048_1_0_0_1_n_n none
          (truncf .bf16 x0 bitsLt_bf16_f32 : FVec Ideal S1024x128 .bf16)
          (truncf .bf16 x1 bitsLt_bf16_f32 : FVec Ideal S128x2048 .bf16) (constant S1024x2048 .f32 0x00000000#32) (ix2 p q)) zeroW = _
  rw [hA, hB, hM]
  rfl

/-! ## The index maps over the thirty-two grid points -/

/-- Over the grid: the blocks of the projected x and of its column of squared lengths sit at the result block's block
    row, those of the transposed projected y and of its row of squared lengths at the result block's block column,
    every other block index is 0, and the result's block row is at most 7 and its block column at most 3. -/
theorem idx_facts : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = win2_4.index t (1 : Fin 2)
    ∧ win2_2.index t (0 : Fin 2) = win2_4.index t (0 : Fin 2)
    ∧ win2_2.index t (1 : Fin 2) = 0
    ∧ win2_3.index t (0 : Fin 2) = 0
    ∧ win2_3.index t (1 : Fin 2) = win2_4.index t (1 : Fin 2)
    ∧ win2_4.index t (0 : Fin 2) ≤ 7
    ∧ win2_4.index t (1 : Fin 2) ≤ 3 :=
  (by decide +kernel : ∀ t : Fin grid2.N, _)

/-- Every pair of a block row and a block column is some grid point's. -/
theorem idx_onto : ∀ (q0 : Fin 8) (q1 : Fin 4), ∃ t : Fin cfg2.N, win2_4.index t (0 : Fin 2) = q0.val ∧ win2_4.index t (1 : Fin 2) = q1.val :=
  (by decide +kernel : ∀ (q0 : Fin 8) (q1 : Fin 4), ∃ t : Fin grid2.N, win2_4.index t (0 : Fin 2) = q0.val ∧ win2_4.index t (1 : Fin 2) = q1.val)

/-! ## What a grid point writes back -/

/-- The four arrays the region reads, as it finds them. -/
abbrev xlarr (c : Dev nD) : Mat 8192 128 := V c main_v0_0
abbrev yltarr (c : Dev nD) : Mat 128 8192 := V c main_v1_0
abbrev xnarr (c : Dev nD) : Mat 8192 1 := V c main_v0_1
abbrev ynarr (c : Dev nD) : Mat 1 8192 := V c main_v1_1

/-- Point t writes back its block of the last step applied to the four arrays. -/
theorem flushed4_eq (c : Dev nD) (t : Fin cfg2.N) :
    (dat2 V c).flushed 4 t = ((cfg2.win 4).blk t).view.read (Elt Ideal)
      (distOf (V c main_v0_0) (V c main_v1_0) (V c main_v0_1) (V c main_v1_1)) := by
  show (cfg2.win 4).cut (grid2.coords t) ((dat2 V c).after 4 t) = _
  rw [after2_4]
  unfold out2_4
  rw [View.canon_unit_zero hz]
  simp only [View.ld_unit_zero (S := S1024x128) hz, View.ld_unit_zero (S := S128x2048) hz, View.ld_unit_zero (S := S1024x1) hz,
    View.ld_unit_zero (S := S1x2048) hz]
  obtain ⟨e0, e1, e2, e3, e4, e5, e6, e7, e8, e9⟩ := idx_facts t
  funext j
  obtain ⟨p, q, rfl⟩ : ∃ (p : Fin 1024) (q : Fin 2048), j = ix2 p q := ⟨j 0, j 1, eq_ix2 j⟩
  show k2_pay1 (iblk2 V c 0 t) (iblk2 V c 1 t) (iblk2 V c 2 t) (iblk2 V c 3 t) (ix2 p q)
    = distOf (V c main_v0_0) (V c main_v1_0) (V c main_v0_1) (V c main_v1_1) (((cfg2.win 4).blk t).view.emb (ix2 p q))
  refine (pay_apply _ _ _ _ p q).trans ?_
  have h0 : ∀ r : Fin 128, ((cfg2.win 0).blk t).view.emb (ix2 p r) = ix2 (row (((cfg2.win 4).blk t).view.emb (ix2 p q))) r := fun r => by
    funext a; apply Fin.ext
    match a with
    | ⟨0, _⟩ => show win2_0.index t (0 : Fin 2) * 1024 + 1 * p.val = win2_4.index t (0 : Fin 2) * 1024 + 1 * p.val; omega
    | ⟨1, _⟩ => show win2_0.index t (1 : Fin 2) * 128 + 1 * r.val = r.val; omega
  have h1 : ∀ r : Fin 128, ((cfg2.win 1).blk t).view.emb (ix2 r q) = ix2 r (col (((cfg2.win 4).blk t).view.emb (ix2 p q))) := fun r => by
    funext a; apply Fin.ext
    match a with
    | ⟨0, _⟩ => show win2_1.index t (0 : Fin 2) * 128 + 1 * r.val = r.val; omega
    | ⟨1, _⟩ => show win2_1.index t (1 : Fin 2) * 2048 + 1 * q.val = win2_4.index t (1 : Fin 2) * 2048 + 1 * q.val; omega
  have h2 : ((cfg2.win 2).blk t).view.emb (ix2 p (0 : Fin 1)) = ix2 (row (((cfg2.win 4).blk t).view.emb (ix2 p q))) (0 : Fin 1) := by
    funext a; apply Fin.ext
    match a with
    | ⟨0, _⟩ => show win2_2.index t (0 : Fin 2) * 1024 + 1 * p.val = win2_4.index t (0 : Fin 2) * 1024 + 1 * p.val; omega
    | ⟨1, _⟩ => show win2_2.index t (1 : Fin 2) * 1 + 1 * 0 = 0; omega
  have h3 : ((cfg2.win 3).blk t).view.emb (ix2 (0 : Fin 1) q) = ix2 (0 : Fin 1) (col (((cfg2.win 4).blk t).view.emb (ix2 p q))) := by
    funext a; apply Fin.ext
    match a with
    | ⟨0, _⟩ => show win2_3.index t (0 : Fin 2) * 1 + 1 * 0 = 0; omega
    | ⟨1, _⟩ => show win2_3.index t (1 : Fin 2) * 2048 + 1 * q.val = win2_4.index t (1 : Fin 2) * 2048 + 1 * q.val; omega
  show max ((xnarr V c (((cfg2.win 2).blk t).view.emb (ix2 p (0 : Fin 1))) + ynarr V c (((cfg2.win 3).blk t).view.emb (ix2 (0 : Fin 1) q)))
      - twoW * ∑ r : Fin 128, xlarr V c (((cfg2.win 0).blk t).view.emb (ix2 p r)) * yltarr V c (((cfg2.win 1).blk t).view.emb (ix2 r q))) zeroW
    = max ((xnarr V c (ix2 (row (((cfg2.win 4).blk t).view.emb (ix2 p q))) (0 : Fin 1))
        + ynarr V c (ix2 (0 : Fin 1) (col (((cfg2.win 4).blk t).view.emb (ix2 p q)))))
      - twoW * ∑ r : Fin 128, xlarr V c (ix2 (row (((cfg2.win 4).blk t).view.emb (ix2 p q))) r)
          * yltarr V c (ix2 r (col (((cfg2.win 4).blk t).view.emb (ix2 p q))))) zeroW
  rw [h2, h3]
  simp only [h0, h1]

/-! ## The blocks tile the result array -/

/-- An index of the result array is in point t's block iff each coordinate is in the block's range. -/
theorem mem_blk4 (t : Fin cfg2.N) (i : S8192x8192.Idx) :
    i ∈ ((cfg2.win 4).blk t).view.set ↔ ∀ a : Fin 2, win2_4.index t a * S1024x2048.size a ≤ (i a).val ∧ (i a).val < win2_4.index t a * S1024x2048.size a + S1024x2048.size a := by
  show i ∈ ((View.whole main_v2).slice (win2_4.rect t)).set ↔ _
  rw [View.set_slice_whole, Rect.mem_set_unit]
  exact Iff.rfl

/-- The entry (m, n) is in the block of the point whose block row is m / 1024 and block column n / 2048. -/
theorem cover4 (i : S8192x8192.Idx) : ∃ t : Fin cfg2.N, (cfg2.win 4).flush t = true ∧ i ∈ ((cfg2.win 4).blk t).view.set := by
  have hi0 : (i 0).val < 8192 := (i 0).isLt
  have hi1 : (i 1).val < 8192 := (i 1).isLt
  obtain ⟨t, ht0, ht1⟩ := idx_onto ⟨(i 0).val / 1024, by omega⟩ ⟨(i 1).val / 2048, by omega⟩
  have q0 : win2_4.index t (0 : Fin 2) = (i 0).val / 1024 := ht0
  have q1 : win2_4.index t (1 : Fin 2) = (i 1).val / 2048 := ht1
  refine ⟨t, flush2_4 t, ?_⟩
  rw [mem_blk4]
  intro a
  match a with
  | ⟨0, _⟩ => show win2_4.index t (0 : Fin 2) * 1024 ≤ (i 0).val ∧ (i 0).val < win2_4.index t (0 : Fin 2) * 1024 + 1024; omega
  | ⟨1, _⟩ => show win2_4.index t (1 : Fin 2) * 2048 ≤ (i 1).val ∧ (i 1).val < win2_4.index t (1 : Fin 2) * 2048 + 2048; omega

/-! ## The result array after the region -/

/-- After the region the result array holds the last step applied to the four arrays the region found. -/
theorem final4 (c : Dev nD) : (dat2 V c).arrAt 4 cfg2.N
    = distOf (V c main_v0_0) (V c main_v1_0) (V c main_v0_1) (V c main_v1_1) :=
  (dat2 V c).arrAt_eq_of_cover 4 _ (fun t _ => flushed4_eq V c t) cover4

end Cert.KernelIdeal.Dist

end
-- ==== Proof.Result.lean ====
/-
  The result buffer after the three regions, as a function of the launch contents of x, y and L.
  The third region finds, in the four arrays it reads, what the first two regions left: the projected rows of x and
  their squared lengths (first region, from x and L as launched), and the transposed projected rows of y and their
  squared lengths (second region, from y as launched and from L, which the first region read and left as it was). The
  last step applied to those four arrays is the clamped squared distance of the specification.
-/
import proofs.«166291_j3058016715342_1_alg».proof.Proof.Gen.KernelIdeal.Frame
import proofs.«166291_j3058016715342_1_alg».proof.Proof.Spec
import proofs.«166291_j3058016715342_1_alg».proof.Proof.ProjX
import proofs.«166291_j3058016715342_1_alg».proof.Proof.ProjY
import proofs.«166291_j3058016715342_1_alg».proof.Proof.Dist

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)
open Cert.LowRankDist

variable (m : (ℓ : Loc nD τ sig) → Buf (Elt Ideal) ℓ) (ρ : Dev nD → PrngReg)

/-- The launch contents of x, y and L. -/
abbrev xin (c : Dev nD) : Mat 8192 1024 := m ((c.tc : Thread nD τ).loc main_arg0)
abbrev yin (c : Dev nD) : Mat 8192 1024 := m ((c.tc : Thread nD τ).loc main_arg1)
abbrev lin (c : Dev nD) : Mat 128 1024 := m ((c.tc : Thread nD τ).loc main_arg2)

/-- The second region finds y as launched (the first region does not touch it) … -/
theorem V1_y (c : Dev nD) : V1 m ρ c main_arg1 = yin m c := W1_of_ne m ρ c main_arg1 (by decide)

/-- … and L as launched (the first region reads it through an input window and leaves it). -/
theorem V1_L (c : Dev nD) : V1 m ρ c main_arg2 = lin m c :=
  (W1_arr m ρ c 1).trans (((dat0 (V0 m ρ) c).arrAt_in 1 rfl _).trans (A_eq0 (V0 m ρ) c 1))

/-- The third region finds the projected rows of x … -/
theorem V2_xl (c : Dev nD) : V2 m ρ c main_v0_0 = projArr (xin m c) (lin m c) :=
  (W2_of_ne m ρ c main_v0_0 (by decide)).trans ((W1_arr m ρ c 2).trans (ProjX.final2 (V0 m ρ) c))

/-- … their squared lengths as a column … -/
theorem V2_xn (c : Dev nD) : V2 m ρ c main_v0_1 = sqCol (xin m c) (lin m c) :=
  (W2_of_ne m ρ c main_v0_1 (by decide)).trans ((W1_arr m ρ c 3).trans (ProjX.final3 (V0 m ρ) c))

/-- … the transposed projected rows of y … -/
theorem V2_ylt (c : Dev nD) : V2 m ρ c main_v1_0 = projArrT (yin m c) (lin m c) :=
  ((W2_arr m ρ c 2).trans (ProjY.final2 (V1 m ρ) c)).trans (congrArg₂ projArrT (V1_y m ρ c) (V1_L m ρ c))

/-- … and their squared lengths as a row. -/
theorem V2_yn (c : Dev nD) : V2 m ρ c main_v1_1 = sqRow (yin m c) (lin m c) :=
  ((W2_arr m ρ c 3).trans (ProjY.final3 (V1 m ρ) c)).trans (congrArg₂ sqRow (V1_y m ρ c) (V1_L m ρ c))

/-- After the third region the result buffer holds the clamped squared distance of the launch contents. -/
theorem result (c : Dev nD) : W3 m ρ c (Proc.devRef .tc main_v2) = dist (xin m c) (yin m c) (lin m c) := by
  refine ((W3_arr m ρ c 4).trans (Dist.final4 (V2 m ρ) c)).trans ?_
  refine Eq.trans ?_ (distOf_eq (xin m c) (yin m c) (lin m c))
  exact congr (congr (congrArg₂ distOf (V2_xl m ρ c) (V2_ylt m ρ c)) (V2_xn m ρ c)) (V2_yn m ρ c)

end Cert.KernelIdeal.Result

end
-- ==== Proof.RefValue.lean ====
/-
  The reference, read one operation at a time on the extended reals, is the clamped squared distance of the specification:
  its two products with the transposed L are the projections (row n of the array against row r of L), its two sums
  over the 128 projected coordinates — each started from the zero word, which is the number 0 — are their squared
  lengths, its product of the projected x with the transposed projected y is the inner product of two projected rows, and
  the broadcasts, the factor two, the difference and the maximum with zero are the last step as written.
-/
import proofs.«166291_j3058016715342_1_alg».proof.Proof.Gen.ReferenceIdeal.Read
import Idealize.ShloMosaic.Lib.ValueIdx
import Idealize.ShloMosaic.PureOps.Ideal.Laws
import proofs.«166291_j3058016715342_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.LowRankDist

variable (x0 x1 : (⟨S8192x1024, .f32⟩ : BufTy).Contents (Elt Ideal)) (x2 : (⟨S128x1024, .f32⟩ : BufTy).Contents (Elt Ideal))

/-- The product of an array with the transposed L, at (n, r): row n against row r of L. -/
theorem v1_apply (n : Fin 8192) (r : Fin 128) : val_main_v1 (F := Ideal) x0 x2 (ix2 n r) = proj x0 x2 n r := by
  rw [val_main_v1_apply]
  refine Finset.sum_congr rfl fun k _ => ?_
  rw [val_main_v0_apply]
  have e1 : lidx_main_v1 (ix2 n r) k = ix2 n k := funext fun a => by
    match a with
    | ⟨0, _⟩ => rfl
    | ⟨1, _⟩ => rfl
  have e2 : idx_main_v0 (ridx_main_v1 (ix2 n r) k) = ix2 r k := funext fun a => by
    match a with
    | ⟨0, _⟩ => rfl
    | ⟨1, _⟩ => rfl
  rw [e1, e2]

theorem v3_apply (n : Fin 8192) (r : Fin 128) : val_main_v3 (F := Ideal) x1 x2 (ix2 n r) = proj x1 x2 n r := by
  rw [val_main_v3_apply]
  refine Finset.sum_congr rfl fun k _ => ?_
  rw [val_main_v2_apply]
  have e1 : lidx_main_v3 (ix2 n r) k = ix2 n k := funext fun a => by
    match a with
    | ⟨0, _⟩ => rfl
    | ⟨1, _⟩ => rfl
  have e2 : idx_main_v2 (ridx_main_v3 (ix2 n r) k) = ix2 r k := funext fun a => by
    match a with
    | ⟨0, _⟩ => rfl
    | ⟨1, _⟩ => rfl
  rw [e1, e2]

/-- The sum of the squared projections, started from the zero word, at n: the squared length. -/
theorem v5_apply (n : Fin 8192) : val_main_v5 (F := Ideal) x0 x2 (ix1 n) = sqnorm x0 x2 n := by
  rw [val_main_v5_apply, val_main_cst_apply]
  show Ideal.ofBits .f32 0x00000000#32 + _ = _
  rw [Ideal.ofBits_zero_f32, zero_add]
  refine Finset.sum_congr rfl fun r _ => ?_
  have e : idx_main_v5 (ix1 n) r = ix2 n r := funext fun a => by
    match a with
    | ⟨0, _⟩ => rfl
    | ⟨1, _⟩ => rfl
  rw [e, val_main_v4_apply, v1_apply]
  rfl

theorem v7_apply (n : Fin 8192) : val_main_v7 (F := Ideal) x1 x2 (ix1 n) = sqnorm x1 x2 n := by
  rw [val_main_v7_apply, val_main_cst_0_apply]
  show Ideal.ofBits .f32 0x00000000#32 + _ = _
  rw [Ideal.ofBits_zero_f32, zero_add]
  refine Finset.sum_congr rfl fun r _ => ?_
  have e : idx_main_v7 (ix1 n) r = ix2 n r := funext fun a => by
    match a with
    | ⟨0, _⟩ => rfl
    | ⟨1, _⟩ => rfl
  rw [e, val_main_v6_apply, v3_apply]
  rfl

/-- The product of the projected x with the transposed projected y, at (m, n): the inner product of two projected rows. -/
theorem v9_apply (m n : Fin 8192) : val_main_v9 (F := Ideal) x0 x1 x2 (ix2 m n) = cross x0 x1 x2 m n := by
  rw [val_main_v9_apply]
  refine Finset.sum_congr rfl fun r _ => ?_
  have e1 : lidx_main_v9 (ix2 m n) r = ix2 m r := funext fun a => by
    match a with
    | ⟨0, _⟩ => rfl
    | ⟨1, _⟩ => rfl
  have e2 : idx_main_v8 (ridx_main_v9 (ix2 m n) r) = ix2 n r := funext fun a => by
    match a with
    | ⟨0, _⟩ => rfl
    | ⟨1, _⟩ => rfl
  rw [val_main_v8_apply, e1, e2, v1_apply, v3_apply]

/-- The reference's result is the clamped squared distance. -/
theorem result_eq : val_main_v19 (F := Ideal) x0 x1 x2 = dist x0 x1 x2 := by
  funext i
  obtain ⟨m, n, rfl⟩ : ∃ (m n : Fin 8192), i = ix2 m n := ⟨i 0, i 1, eq_ix2 i⟩
  have e12 : idx_main_v10 (idx_main_v12 (ix2 m n)) = ix1 m := funext fun a => by
    match a with
    | ⟨0, _⟩ => rfl
  have e13 : idx_main_v11 (idx_main_v13 (ix2 m n)) = ix1 n := funext fun a => by
    match a with
    | ⟨0, _⟩ => rfl
  rw [val_main_v19_apply, val_main_v17_apply, val_main_v14_apply, val_main_v16_apply, val_main_v12_apply, val_main_v10_apply,
    val_main_v13_apply, val_main_v11_apply, val_main_v15_apply, val_main_v18_apply, val_main_cst_1_apply, val_main_cst_2_apply,
    e12, e13, v5_apply, v7_apply, v9_apply]
  rfl

end Cert.ReferenceIdeal.RefValue

end
-- ==== Proof.lean ====
/-
  The clamped squared distance between the rows of x and the rows of y after projecting both onto the 128 rows of L:
  at (m, n),  max( ‖L x_m‖² + ‖L y_n‖² − 2 · ⟨L x_m, L y_n⟩ , 0 ).

  The kernel computes it in three regions — the projected rows of x with their squared lengths, the projected rows of y
  (stored transposed) with theirs, and then the combination block by block — and the reference in one chain of whole-array
  operations. On the extended reals both are the same function of x, y and L (Proof/Spec.lean): the only difference in
  the arithmetic is the order of the two factors in each term of the second projection, which a product of extended
  reals does not see; every sum is the same sum, started from the same zero, and the changes of float format are the
  identity. No finiteness of the inputs is used.

  The three frames are the generated ones (the reference's is its generated run with the result dropped); no operation
  of the kernel is rewritten in its idealization, which is the kernel's own text read on the extended reals.
-/
import proofs.«166291_j3058016715342_1_alg».proof.Defs
import proofs.«166291_j3058016715342_1_alg».proof.Proof.Gen.Kernel
import proofs.«166291_j3058016715342_1_alg».proof.Proof.Gen.Kernel.Skeleton
import proofs.«166291_j3058016715342_1_alg».proof.Proof.Gen.Kernel.Launch
import proofs.«166291_j3058016715342_1_alg».proof.Proof.Gen.Kernel.Points
import proofs.«166291_j3058016715342_1_alg».proof.Proof.Gen.Kernel.Frame
import proofs.«166291_j3058016715342_1_alg».proof.Proof.Gen.KernelIdeal
import proofs.«166291_j3058016715342_1_alg».proof.Proof.Gen.KernelIdeal.Skeleton
import proofs.«166291_j3058016715342_1_alg».proof.Proof.Gen.KernelIdeal.Launch
import proofs.«166291_j3058016715342_1_alg».proof.Proof.Gen.KernelIdeal.Points
import proofs.«166291_j3058016715342_1_alg».proof.Proof.Gen.KernelIdeal.Frame
import proofs.«166291_j3058016715342_1_alg».proof.Proof.Gen.ReferenceIdeal
import proofs.«166291_j3058016715342_1_alg».proof.Proof.Gen.ReferenceIdeal.Run
import proofs.«166291_j3058016715342_1_alg».proof.Proof.Gen.ReferenceIdeal.Read
import proofs.«166291_j3058016715342_1_alg».proof.Proof.Gen.Pre_finite_inputs
import proofs.«166291_j3058016715342_1_alg».proof.Proof.KernelRun
import proofs.«166291_j3058016715342_1_alg».proof.Proof.Result
import proofs.«166291_j3058016715342_1_alg».proof.Proof.RefValue
import Idealize.ShloMosaic.Adequacy
import Idealize.ShloMosaic.Init

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end with the clamped squared distance of the arguments in their result buffers: the
    kernel by its run through the three regions, the reference by its run read one operation at a time. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.LowRankDist.dist (Cert.KernelIdeal.Result.xin m c) (Cert.KernelIdeal.Result.yin m c)
    (Cert.KernelIdeal.Result.lin m c), ?_, ?_⟩
  · exact (θ_run Cert.KernelIdeal.defs _ _).mono
      (fun r h c => ⟨(h c).1.trans (Cert.KernelIdeal.Result.result m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v19_eq _ _ _).trans ?_
    rw [(hagree c).1, (hagree c).2.1, (hagree c).2.2]
    exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
